-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S64x4096 : Shape := ⟨2, ![64, 4096]⟩
abbrev S64x128 : Shape := ⟨2, ![64, 128]⟩
abbrev S4096x64 : Shape := ⟨2, ![4096, 64]⟩
abbrev S4096x2 : Shape := ⟨2, ![4096, 2]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S4096x2 : S_.BroadcastsInDim S4096x2 (![] : Fin 0 → Fin S4096x2.rank)
  reducesTo_S4096x2_S_d0_1 : S4096x2.ReducesTo [0, 1] S_

variable [Facts]

def fn {F : FTy → Type} [FloatOps F] (main_arg0 : FVec F S16384x4096 .f32) (main_arg1 : IVec S64x4096 32) (main_arg2 : FVec F S64x128 .f32) (main_arg3 : IVec S4096x64 32) (main_arg4 : FVec F S4096x2 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S4096x2 .f32 := Host.absf main_arg4
  let main_cst_2 : FVec F S_ .f32 := constant S_ .f32 0x7F800000#32
  let main_v10 : FVec F S4096x2 .f32 := broadcastInDim S4096x2 ![] bcast_S_S4096x2 main_cst_2
  let main_v11 : IVec S4096x2 1 := cmpf .olt main_v9 main_v10
  let main_c_3 : IVec S_ 1 := constantI S_ 1 1#1
  let main_v12 : IVec S_ 1 := (fun x v => Host.reduce IntOp.andi x v reducesTo_S4096x2_S_d0_1 h_S_) main_v11 main_c_3
  let main_v13 : IVec S_ 1 := andi main_v8 main_v12
  main_v13
-- ==== Kernel.lean ====
abbrev S16384x4096 : Shape := ⟨2, ![16384, 4096]⟩
abbrev S64x4096 : Shape := ⟨2, ![64, 4096]⟩
abbrev S64x128 : Shape := ⟨2, ![64, 128]⟩
abbrev S4096x64 : Shape := ⟨2, ![4096, 64]⟩
abbrev S4096x2 : Shape := ⟨2, ![4096, 2]⟩
abbrev S64x128x32 : Shape := ⟨3, ![64, 128, 32]⟩
abbrev S64x128x1 : Shape := ⟨3, ![64, 128, 1]⟩
abbrev S4096x2x32 : Shape := ⟨3, ![4096, 2, 32]⟩
abbrev S4096x2x1 : Shape := ⟨3, ![4096, 2, 1]⟩
abbrev S512x4096 : Shape := ⟨2, ![512, 4096]⟩
abbrev S512x64 : Shape := ⟨2, ![512, 64]⟩

abbrev nBuf : Space → Nat
  | .hbm => 18
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S64x4096, .i32⟩
  | .hbm, ⟨2, _⟩ => ⟨S64x128, .f32⟩
  | .hbm, ⟨3, _⟩ => ⟨S4096x64, .i32⟩
  | .hbm, ⟨4, _⟩ => ⟨S4096x2, .f32⟩
  | .hbm, ⟨5, _⟩ => ⟨S64x128x32, .i32⟩
  | .hbm, ⟨6, _⟩ => ⟨S64x128x32, .f32⟩
  | .hbm, ⟨7, _⟩ => ⟨S64x128x1, .f32⟩
  | .hbm, ⟨8, _⟩ => ⟨S64x128x32, .f32⟩
  | .hbm, ⟨9, _⟩ => ⟨S64x128x32, .f32⟩
  | .hbm, ⟨10, _⟩ => ⟨S64x4096, .f32⟩
  | .hbm, ⟨11, _⟩ => ⟨S4096x2x32, .i32⟩
  | .hbm, ⟨12, _⟩ => ⟨S4096x2x32, .f32⟩
  | .hbm, ⟨13, _⟩ => ⟨S4096x2x1, .f32⟩
  | .hbm, ⟨14, _⟩ => ⟨S4096x2x32, .f32⟩
  | .hbm, ⟨15, _⟩ => ⟨S4096x2x32, .f32⟩
  | .hbm, ⟨16, _⟩ => ⟨S4096x64, .f32⟩
  | .hbm, ⟨17, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S64x4096, .f32⟩
  | .local _ .vmem, ⟨3, _⟩ => ⟨S4096x64, .f32⟩
  | .local _ .vmem, ⟨4, _⟩ => ⟨S512x4096, .f32⟩
  | .local _ .vmem, ⟨5, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x4096_S64x128x32 : S64x4096.ShapeCasts S64x128x32
  bcast_S64x128_S64x128x1_0_1 : S64x128.BroadcastsInDim S64x128x1 (![0, 1] : Fin 2 → Fin S64x128x1.rank)
  bcast_S64x128x1_S64x128x32_0_1_2 : S64x128x1.BroadcastsInDim S64x128x32 (![0, 1, 2] : Fin 3 → Fin S64x128x32.rank)
  shapeCasts_S64x128x32_S64x4096 : S64x128x32.ShapeCasts S64x4096
  shapeCasts_S4096x64_S4096x2x32 : S4096x64.ShapeCasts S4096x2x32
  bcast_S4096x2_S4096x2x1_0_1 : S4096x2.BroadcastsInDim S4096x2x1 (![0, 1] : Fin 2 → Fin S4096x2x1.rank)
  bcast_S4096x2x1_S4096x2x32_0_1_2 : S4096x2x1.BroadcastsInDim S4096x2x32 (![0, 1, 2] : Fin 3 → Fin S4096x2x32.rank)
  shapeCasts_S4096x2x32_S4096x64 : S4096x2x32.ShapeCasts S4096x64
  inb_S512x4096_S512x4096_0_0 : ∀ a, (![0, 0] : Fin 2 → Nat) a + S512x4096.size a ≤ S512x4096.size a
  h_S512x4096 : 0 < S512x4096.numel
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  dot_S512x4096_S64x4096_S512x64_1_1_0_0_n_n_wf : DotDims.WF S512x4096 S64x4096 S512x64 [1] [1] [0] [0] [] []
  dot_S512x64_S4096x64_S512x4096_1_1_0_0_n_n_wf : DotDims.WF S512x64 S4096x64 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .f32 = 32 ∨ (Rect.block (s := S4096x64) S4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S16384x4096.size a
  hwx0_3 : ∀ i : grid0.Coords, EltTy.bits .f32 = 32 ∨ (Rect.block (s := S16384x4096) S512x4096.size (cc0_transform_3 i) (hinb0_3 i)).WholeWords (EltTy.packing .f32)

variable [Facts₀]

def dot_S512x4096_S64x4096_S512x64_1_1_0_0_n_n : DotDims S512x4096 S64x4096 S512x64 where
  lhsContracting := [1]
  rhsContracting := [1]
  lhsNonContracting := [0]
  rhsNonContracting := [0]
  lhsBatch := []
  rhsBatch := []
  wf := dot_S512x4096_S64x4096_S512x64_1_1_0_0_n_n_wf
def dot_S512x64_S4096x64_S512x4096_1_1_0_0_n_n : DotDims S512x64 S4096x64 S512x4096 where
  lhsContracting := [1]
  rhsContracting := [1]
  lhsNonContracting := [0]
  rhsNonContracting := [0]
  lhsBatch := []
  rhsBatch := []
  wf := dot_S512x64_S4096x64_S512x4096_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S64x4096 : Shape := ⟨2, ![64, 4096]⟩
abbrev S64x128 : Shape := ⟨2, ![64, 128]⟩
abbrev S4096x64 : Shape := ⟨2, ![4096, 64]⟩
abbrev S4096x2 : Shape := ⟨2, ![4096, 2]⟩
abbrev S64x128x32 : Shape := ⟨3, ![64, 128, 32]⟩
abbrev S64x128x1 : Shape := ⟨3, ![64, 128, 1]⟩
abbrev S4096x2x32 : Shape := ⟨3, ![4096, 2, 32]⟩
abbrev S4096x2x1 : Shape := ⟨3, ![4096, 2, 1]⟩
abbrev S16384x64 : Shape := ⟨2, ![16384, 64]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S64x4096, .i32⟩
  | .hbm, ⟨2, _⟩ => ⟨S64x128, .f32⟩
  | .hbm, ⟨3, _⟩ => ⟨S4096x64, .i32⟩
  | .hbm, ⟨4, _⟩ => ⟨S4096x2, .f32⟩
  | .hbm, ⟨5, _⟩ => ⟨S64x128x32, .i32⟩
  | .hbm, ⟨6, _⟩ => ⟨S64x128x32, .f32⟩
  | .hbm, ⟨7, _⟩ => ⟨S64x128x1, .f32⟩
  | .hbm, ⟨8, _⟩ => ⟨S64x128x32, .f32⟩
  | .hbm, ⟨9, _⟩ => ⟨S64x128x32, .f32⟩
  | .hbm, ⟨10, _⟩ => ⟨S64x4096, .f32⟩
  | .hbm, ⟨11, _⟩ => ⟨S4096x2x32, .i32⟩
  | .hbm, ⟨12, _⟩ => ⟨S4096x2x32, .f32⟩
  | .hbm, ⟨13, _⟩ => ⟨S4096x2x1, .f32⟩
  | .hbm, ⟨14, _⟩ => ⟨S4096x2x32, .f32⟩
  | .hbm, ⟨15, _⟩ => ⟨S4096x2x32, .f32⟩
  | .hbm, ⟨16, _⟩ => ⟨S4096x64, .f32⟩
  | .hbm, ⟨17, _⟩ => ⟨S4096x64, .f32⟩
  | .hbm, ⟨18, _⟩ => ⟨S16384x64, .f32⟩
  | .hbm, ⟨19, _⟩ => ⟨S64x4096, .f32⟩
  | .hbm, ⟨20, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S64x4096_S64x128x32 : S64x4096.ShapeCasts S64x128x32
  bcast_S64x128_S64x128x1_0_1 : S64x128.BroadcastsInDim S64x128x1 (![0, 1] : Fin 2 → Fin S64x128x1.rank)
  bcast_S64x128x1_S64x128x32_0_1_2 : S64x128x1.BroadcastsInDim S64x128x32 (![0, 1, 2] : Fin 3 → Fin S64x128x32.rank)
  shapeCasts_S64x128x32_S64x4096 : S64x128x32.ShapeCasts S64x4096
  shapeCasts_S4096x64_S4096x2x32 : S4096x64.ShapeCasts S4096x2x32
  bcast_S4096x2_S4096x2x1_0_1 : S4096x2.BroadcastsInDim S4096x2x1 (![0, 1] : Fin 2 → Fin S4096x2x1.rank)
  bcast_S4096x2x1_S4096x2x32_0_1_2 : S4096x2x1.BroadcastsInDim S4096x2x32 (![0, 1, 2] : Fin 3 → Fin S4096x2x32.rank)
  shapeCasts_S4096x2x32_S4096x64 : S4096x2x32.ShapeCasts S4096x64
  transposes_S64x4096_S4096x64_1_0 : S64x4096.Transposes [1, 0] S4096x64
  transposes_S4096x64_S64x4096_1_0 : S4096x64.Transposes [1, 0] S64x4096
  dot_S16384x4096_S4096x64_S16384x64_1_0_0_1_n_n_wf : DotDims.WF S16384x4096 S4096x64 S16384x64 [1] [0] [0] [1] [] []
  dot_S16384x64_S64x4096_S16384x4096_1_0_0_1_n_n_wf : DotDims.WF S16384x64 S64x4096 S16384x4096 [1] [0] [0] [1] [] []

variable [Facts₀]

def dot_S16384x4096_S4096x64_S16384x64_1_0_0_1_n_n : DotDims S16384x4096 S4096x64 S16384x64 where
  lhsContracting := [1]
  rhsContracting := [0]
  lhsNonContracting := [0]
  rhsNonContracting := [1]
  lhsBatch := []
  rhsBatch := []
  wf := dot_S16384x4096_S4096x64_S16384x64_1_0_0_1_n_n_wf
def dot_S16384x64_S64x4096_S16384x4096_1_0_0_1_n_n : DotDims S16384x64 S64x4096 S16384x4096 where
  lhsContracting := [1]
  rhsContracting := [0]
  lhsNonContracting := [0]
  rhsNonContracting := [1]
  lhsBatch := []
  rhsBatch := []
  wf := dot_S16384x64_S64x4096_S16384x4096_1_0_0_1_n_n_wf

class Facts : Prop extends Facts₀ where

variable [Facts]
-- ==== Proof.LowRankSpec.lean ====
/-
  The low-rank update, as one function of three arrays.

  With tokens `x : [16384, 4096]`, a down-projection `a : [64, 4096]` and an up-projection `b : [4096, 64]`,
  the result at token `t` and output feature `o` is

      out[t, o] = ∑ r < 64, (∑ d < 4096, x[t, d] · a[r, d]) · b[o, r]

  — first the 64 inner products of token `t` with the rows of `a`, then the inner product of those with row `o`
  of `b`. Both programs compute exactly this double sum in exactly this association (inner sum over the model
  dimension, outer sum over the rank), so on the extended reals no law beyond reading each sum at its index is
  needed: nothing is distributed, nothing is cancelled, and no input has to be finite.
-/
import Idealize.ShloMosaic.PureOps.Ideal
import Idealize.ShloMosaic.Lib.ValueIdx

noncomputable section

open scoped BigOperators

namespace Cert.LowRank

open Idealize.ShloMosaic Idealize.ShloMosaic.ValueIdx

/-- The rank-64 hidden activation of token `t` on rank coordinate `r`: the inner product of row `t` of `x` with
    row `r` of `a`, over the 4096 model coordinates. -/
def hidden (x : (⟨2, ![16384, 4096]⟩ : Shape).Idx → EReal) (a : (⟨2, ![64, 4096]⟩ : Shape).Idx → EReal)
    (t : Fin 16384) (r : Fin 64) : EReal :=
  ∑ d : Fin 4096, x (ix2 t d) * a (ix2 r d)

/-- The update at token `t`, output feature `o`: the inner product of the hidden activation of `t` with row `o`
    of `b`, over the 64 rank coordinates. -/
def outAt (x : (⟨2, ![16384, 4096]⟩ : Shape).Idx → EReal) (a : (⟨2, ![64, 4096]⟩ : Shape).Idx → EReal)
    (b : (⟨2, ![4096, 64]⟩ : Shape).Idx → EReal) (t : Fin 16384) (o : Fin 4096) : EReal :=
  ∑ r : Fin 64, hidden x a t r * b (ix2 o r)

/-- The whole result array: `outAt` at each index's two coordinates. -/
def out (x : (⟨2, ![16384, 4096]⟩ : Shape).Idx → EReal) (a : (⟨2, ![64, 4096]⟩ : Shape).Idx → EReal)
    (b : (⟨2, ![4096, 64]⟩ : Shape).Idx → EReal) : (⟨2, ![16384, 4096]⟩ : Shape).Idx → EReal :=
  fun i => outAt x a b (i 0) (i 1)

theorem out_ix2 (x : (⟨2, ![16384, 4096]⟩ : Shape).Idx → EReal) (a : (⟨2, ![64, 4096]⟩ : Shape).Idx → EReal)
    (b : (⟨2, ![4096, 64]⟩ : Shape).Idx → EReal) (t : Fin 16384) (o : Fin 4096) :
    out x a b (ix2 t o) = outAt x a b t o := rfl

end Cert.LowRank

end
-- ==== Proof.BodyAt.lean ====
/-
  The kernel body's arithmetic, read at one element.

  At a grid point the body loads a block of 512 tokens `x : [512, 4096]`, the whole down-projection
  `a : [64, 4096]` and the whole up-projection `b : [4096, 64]`, and stores `(x · aᵀ) · bᵀ`: two block products,
  each into a zero accumulator, each contracting the SECOND axis of both of its operands. On the extended reals a
  block product into the zero accumulator is, at an output index, the plain sum over the contracted coordinate of the
  operands' products. With both second axes contracted, the left operand is read at (output row, k) and the right
  operand at (output column, k). So the stored block at (p, q) is

      ∑ r < 64, (∑ d < 4096, x[p, d] · a[r, d]) · b[q, r].
-/
import proofs.«427352_j60258391162946_3_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.LowRank.Body

open Cert.KernelIdeal Cert.KernelIdeal.Gen Idealize.ShloMosaic Idealize.ShloMosaic.ValueIdx

/-! ## The first product, tokens against the down-projection: which operand entries an output entry reads -/

theorem down_lhs_0 (i : S512x64.Idx) (q : dot_S512x4096_S64x4096_S512x64_1_1_0_0_n_n.contr.Idx) :
    (dot_S512x4096_S64x4096_S512x64_1_1_0_0_n_n.lhsIdx i q 0).val = (i 0).val := by
  unfold DotDims.lhsIdx
  rw [dif_neg (show ¬(0 : Fin S512x4096.rank) ∈ dot_S512x4096_S64x4096_S512x64_1_1_0_0_n_n.lhsBatch by decide), dif_pos (show (0 : Fin S512x4096.rank) ∈ dot_S512x4096_S64x4096_S512x64_1_1_0_0_n_n.lhsNonContracting by decide)]
  rfl
theorem down_lhs_1 (i : S512x64.Idx) (q : dot_S512x4096_S64x4096_S512x64_1_1_0_0_n_n.contr.Idx) :
    (dot_S512x4096_S64x4096_S512x64_1_1_0_0_n_n.lhsIdx i q 1).val = (q ⟨0, by decide⟩).val :=
  dot_S512x4096_S64x4096_S512x64_1_1_0_0_n_n.lhsIdx_val_of_single rfl i q
theorem down_rhs_0 (i : S512x64.Idx) (q : dot_S512x4096_S64x4096_S512x64_1_1_0_0_n_n.contr.Idx) :
    (dot_S512x4096_S64x4096_S512x64_1_1_0_0_n_n.rhsIdx i q 0).val = (i 1).val := by
  unfold DotDims.rhsIdx
  rw [dif_neg (show ¬(0 : Fin S64x4096.rank) ∈ dot_S512x4096_S64x4096_S512x64_1_1_0_0_n_n.rhsBatch by decide), dif_pos (show (0 : Fin S64x4096.rank) ∈ dot_S512x4096_S64x4096_S512x64_1_1_0_0_n_n.rhsNonContracting by decide)]
  rfl
theorem down_rhs_1 (i : S512x64.Idx) (q : dot_S512x4096_S64x4096_S512x64_1_1_0_0_n_n.contr.Idx) :
    (dot_S512x4096_S64x4096_S512x64_1_1_0_0_n_n.rhsIdx i q 1).val = (q ⟨0, by decide⟩).val :=
  dot_S512x4096_S64x4096_S512x64_1_1_0_0_n_n.rhsIdx_val_of_single rfl i q

/-- The hidden block at (token p, rank k): the inner product of row p of the left block with row k of the right one, over the 4096 model coordinates. -/
theorem down_apply (l : FVec Ideal S512x4096 .f32) (r : FVec Ideal S64x4096 .f32) (p : Fin 512) (k : Fin 64) :
    matmul dot_S512x4096_S64x4096_S512x64_1_1_0_0_n_n (some .fp32) l r (constant (F := Ideal) S512x64 .f32 0x00000000#32) (ix2 p k)
      = ∑ d : Fin 4096, l (ix2 p d) * r (ix2 k d) := by
  simp only [matmul]
  rw [Ideal.matmul_constant_zero_apply, ← Equiv.sum_comp (contrEquiv1 dot_S512x4096_S64x4096_S512x64_1_1_0_0_n_n 4096 rfl rfl).symm]
  refine Finset.sum_congr rfl fun d _ => ?_
  have hk := contrEquiv1_symm_val dot_S512x4096_S64x4096_S512x64_1_1_0_0_n_n 4096 rfl rfl d
  have el : dot_S512x4096_S64x4096_S512x64_1_1_0_0_n_n.lhsIdx (ix2 p k) ((contrEquiv1 dot_S512x4096_S64x4096_S512x64_1_1_0_0_n_n 4096 rfl rfl).symm d) = ix2 p d := funext fun a => Fin.ext (by
    match a with
    | ⟨0, _⟩ => exact down_lhs_0 _ _
    | ⟨1, _⟩ => exact (down_lhs_1 _ _).trans hk)
  have er : dot_S512x4096_S64x4096_S512x64_1_1_0_0_n_n.rhsIdx (ix2 p k) ((contrEquiv1 dot_S512x4096_S64x4096_S512x64_1_1_0_0_n_n 4096 rfl rfl).symm d) = ix2 k d := funext fun a => Fin.ext (by
    match a with
    | ⟨0, _⟩ => exact down_rhs_0 _ _
    | ⟨1, _⟩ => exact (down_rhs_1 _ _).trans hk)
  rw [el, er]

/-! ## The second product, hidden activations against the up-projection -/

theorem up_lhs_0 (i : S512x4096.Idx) (q : dot_S512x64_S4096x64_S512x4096_1_1_0_0_n_n.contr.Idx) :
    (dot_S512x64_S4096x64_S512x4096_1_1_0_0_n_n.lhsIdx i q 0).val = (i 0).val := by
  unfold DotDims.lhsIdx
  rw [dif_neg (show ¬(0 : Fin S512x64.rank) ∈ dot_S512x64_S4096x64_S512x4096_1_1_0_0_n_n.lhsBatch by decide), dif_pos (show (0 : Fin S512x64.rank) ∈ dot_S512x64_S4096x64_S512x4096_1_1_0_0_n_n.lhsNonContracting by decide)]
  rfl
theorem up_lhs_1 (i : S512x4096.Idx) (q : dot_S512x64_S4096x64_S512x4096_1_1_0_0_n_n.contr.Idx) :
    (dot_S512x64_S4096x64_S512x4096_1_1_0_0_n_n.lhsIdx i q 1).val = (q ⟨0, by decide⟩).val :=
  dot_S512x64_S4096x64_S512x4096_1_1_0_0_n_n.lhsIdx_val_of_single rfl i q
theorem up_rhs_0 (i : S512x4096.Idx) (q : dot_S512x64_S4096x64_S512x4096_1_1_0_0_n_n.contr.Idx) :
    (dot_S512x64_S4096x64_S512x4096_1_1_0_0_n_n.rhsIdx i q 0).val = (i 1).val := by
  unfold DotDims.rhsIdx
  rw [dif_neg (show ¬(0 : Fin S4096x64.rank) ∈ dot_S512x64_S4096x64_S512x4096_1_1_0_0_n_n.rhsBatch by decide), dif_pos (show (0 : Fin S4096x64.rank) ∈ dot_S512x64_S4096x64_S512x4096_1_1_0_0_n_n.rhsNonContracting by decide)]
  rfl
theorem up_rhs_1 (i : S512x4096.Idx) (q : dot_S512x64_S4096x64_S512x4096_1_1_0_0_n_n.contr.Idx) :
    (dot_S512x64_S4096x64_S512x4096_1_1_0_0_n_n.rhsIdx i q 1).val = (q ⟨0, by decide⟩).val :=
  dot_S512x64_S4096x64_S512x4096_1_1_0_0_n_n.rhsIdx_val_of_single rfl i q

/-- The output block at (token p, feature k): the inner product of row p of the hidden block with row k of the up-projection, over the 64 rank coordinates. -/
theorem up_apply (l : FVec Ideal S512x64 .f32) (r : FVec Ideal S4096x64 .f32) (p : Fin 512) (k : Fin 4096) :
    matmul dot_S512x64_S4096x64_S512x4096_1_1_0_0_n_n (some .fp32) l r (constant (F := Ideal) S512x4096 .f32 0x00000000#32) (ix2 p k)
      = ∑ d : Fin 64, l (ix2 p d) * r (ix2 k d) := by
  simp only [matmul]
  rw [Ideal.matmul_constant_zero_apply, ← Equiv.sum_comp (contrEquiv1 dot_S512x64_S4096x64_S512x4096_1_1_0_0_n_n 64 rfl rfl).symm]
  refine Finset.sum_congr rfl fun d _ => ?_
  have hk := contrEquiv1_symm_val dot_S512x64_S4096x64_S512x4096_1_1_0_0_n_n 64 rfl rfl d
  have el : dot_S512x64_S4096x64_S512x4096_1_1_0_0_n_n.lhsIdx (ix2 p k) ((contrEquiv1 dot_S512x64_S4096x64_S512x4096_1_1_0_0_n_n 64 rfl rfl).symm d) = ix2 p d := funext fun a => Fin.ext (by
    match a with
    | ⟨0, _⟩ => exact up_lhs_0 _ _
    | ⟨1, _⟩ => exact (up_lhs_1 _ _).trans hk)
  have er : dot_S512x64_S4096x64_S512x4096_1_1_0_0_n_n.rhsIdx (ix2 p k) ((contrEquiv1 dot_S512x64_S4096x64_S512x4096_1_1_0_0_n_n 64 rfl rfl).symm d) = ix2 k d := funext fun a => Fin.ext (by
    match a with
    | ⟨0, _⟩ => exact up_rhs_0 _ _
    | ⟨1, _⟩ => exact (up_rhs_1 _ _).trans hk)
  rw [el, er]

/-! ## The stored block -/

/-- What the body stores, at (p, q): the two products composed. The two shape casts in the body are casts of a
    shape to itself, so they read through. -/
theorem stored_apply (x : FVec Ideal S512x4096 .f32) (a : FVec Ideal S64x4096 .f32) (b : FVec Ideal S4096x64 .f32)
    (p : Fin 512) (q : Fin 4096) :
    k0_pay1 (F := Ideal) x a b (ix2 p q) = ∑ r : Fin 64, (∑ d : Fin 4096, x (ix2 p d) * a (ix2 r d)) * b (ix2 q r) := by
  unfold k0_pay1
  simp only [shapeCast_self]
  rw [up_apply]
  refine Finset.sum_congr rfl fun r _ => ?_
  rw [down_apply]

end Cert.LowRank.Body

end
-- ==== Proof.Dequant.lean ====
/-
  What the kernel's region finds in its second and third operands.

  Before the region the host dequantizes both factors once: the integer values are regrouped into groups of 32 along
  the last axis, converted to floats, multiplied by their group's scale (the scale array given a trailing unit axis
  and broadcast along the group), and regrouped back. `downProj` is that term for the [64, 4096] down-projection
  (128 groups per row), `upProj` for the [4096, 64] up-projection (2 groups per row). No operation before the region
  writes an argument array, and these two are what the region's windows 1 and 2 stage.
-/
import proofs.«427352_j60258391162946_3_alg».proof.Proof.Gen.KernelIdeal.Frame
import Idealize.ShloMosaic.Lib.StableHlo.Run
import Idealize.ShloMosaic.PureOps.Ideal

noncomputable section

namespace Cert.LowRank.Prefix

open Cert.KernelIdeal Cert.KernelIdeal.Gen Idealize.ShloMosaic Idealize.ShloMosaic.TcCoe Idealize.SL.Sem
open Idealize.ShloMosaic.StableHlo

/-- The dequantized down-projection: value × its group's scale, 128 groups of 32 per row. -/
def downProj (q : (⟨S64x4096, .i32⟩ : BufTy).Contents (Elt Ideal)) (s : (⟨S64x128, .f32⟩ : BufTy).Contents (Elt Ideal)) :
    (⟨S64x4096, .f32⟩ : BufTy).Contents (Elt Ideal) :=
  shapeCast S64x4096 (mulf (F := Ideal) (sitofp .f32 (shapeCast S64x128x32 q shapeCasts_S64x4096_S64x128x32))
    (broadcastInDim S64x128x32 ![0, 1, 2] bcast_S64x128x1_S64x128x32_0_1_2
      (broadcastInDim S64x128x1 ![0, 1] bcast_S64x128_S64x128x1_0_1 s))) shapeCasts_S64x128x32_S64x4096

/-- The dequantized up-projection: value × its group's scale, 2 groups of 32 per row. -/
def upProj (q : (⟨S4096x64, .i32⟩ : BufTy).Contents (Elt Ideal)) (s : (⟨S4096x2, .f32⟩ : BufTy).Contents (Elt Ideal)) :
    (⟨S4096x64, .f32⟩ : BufTy).Contents (Elt Ideal) :=
  shapeCast S4096x64 (mulf (F := Ideal) (sitofp .f32 (shapeCast S4096x2x32 q shapeCasts_S4096x64_S4096x2x32))
    (broadcastInDim S4096x2x32 ![0, 1, 2] bcast_S4096x2x1_S4096x2x32_0_1_2
      (broadcastInDim S4096x2x1 ![0, 1] bcast_S4096x2_S4096x2x1_0_1 s))) shapeCasts_S4096x2x32_S4096x64

variable (m : (ℓ : Loc nD τ sig) → Buf (Elt Ideal) ℓ)

/-- The region's second operand is the dequantized down-projection of the launch contents. -/
theorem V_down (c : Dev nD) :
    (V m c main_v5 : S64x4096.Idx → EReal)
      = downProj (m ((c : Thread nD τ).loc main_arg1)) (m ((c : Thread nD τ).loc main_arg2)) := by
  dsimp only [V, hostOps0]; after_results; rfl

/-- The region's third operand is the dequantized up-projection of the launch contents. -/
theorem V_up (c : Dev nD) :
    (V m c main_v11 : S4096x64.Idx → EReal)
      = upProj (m ((c : Thread nD τ).loc main_arg3)) (m ((c : Thread nD τ).loc main_arg4)) := by
  dsimp only [V, hostOps0]; after_results; rfl

end Cert.LowRank.Prefix

end
-- ==== Proof.KernelValue.lean ====
/-
  The kernel's result array as one function of the arguments.

  The grid has 32 points. Point `t` stages rows `512·t … 512·t + 511` of the tokens (all 4096 columns), the WHOLE
  dequantized down- and up-projections (their block index is (0, 0) at every point), and writes back rows
  `512·t … 512·t + 511` of the result (all 4096 columns). What it writes at (p, q) is the stored block of the body,
  `∑ r, (∑ d, xblk[p, d] · a[r, d]) · b[q, r]`, and `xblk[p, d] = x[512·t + p, d]`: that is the low-rank update at
  (512·t + p, q). So every point's block is the restriction of ONE whole-array function, the 32 row bands tile the
  array (row `i` lies in band `i / 512`), and the array after the run is that function everywhere.
-/
import proofs.«427352_j60258391162946_3_alg».proof.Proof.Gen.KernelIdeal.Value
import proofs.«427352_j60258391162946_3_alg».proof.Proof.LowRankSpec
import proofs.«427352_j60258391162946_3_alg».proof.Proof.BodyAt
import proofs.«427352_j60258391162946_3_alg».proof.Proof.Dequant

noncomputable section

open scoped BigOperators

namespace Cert.LowRank.Kernel

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

/-! ## One point, over plain arrays -/

/-- A block of 512 token rows starting at row `512·T`, with the two projections whole: the stored block at `y` is
    the low-rank update at the array index `i` whose row is `512·T + y's row` and whose column is `y`'s. -/
theorem point_eq (X : FVec Ideal S16384x4096 .f32) (A : FVec Ideal S64x4096 .f32) (B : FVec Ideal S4096x64 .f32)
    (x : FVec Ideal S512x4096 .f32) (a : FVec Ideal S64x4096 .f32) (b : FVec Ideal S4096x64 .f32)
    (T : Nat) (hT : T < 32)
    (hx : ∀ (p : Fin 512) (d : Fin 4096), x (ix2 p d) = X (ix2 (⟨T * 512 + p.val, by omega⟩ : Fin 16384) d))
    (ha : a = A) (hb : b = B)
    (y : S512x4096.Idx) (i : S16384x4096.Idx) (hi0 : (i 0).val = T * 512 + (y 0).val) (hi1 : (i 1).val = (y 1).val) :
    k0_pay1 (F := Ideal) x a b y = Cert.LowRank.out X A B i := by
  obtain ⟨p, q, rfl⟩ : ∃ (p : Fin 512) (q : Fin 4096), y = ix2 p q := ⟨y 0, y 1, eq_ix2 y⟩
  obtain ⟨t, o, rfl⟩ : ∃ (t : Fin 16384) (o : Fin 4096), i = ix2 t o := ⟨i 0, i 1, eq_ix2 i⟩
  have ht : t.val = T * 512 + p.val := hi0
  have ho : o = q := Fin.ext hi1
  subst ha hb ho
  rw [Cert.LowRank.Body.stored_apply, Cert.LowRank.out_ix2]
  unfold Cert.LowRank.outAt Cert.LowRank.hidden
  refine Finset.sum_congr rfl fun r _ => ?_
  refine congrArg (· * b (ix2 o r)) ?_
  refine Finset.sum_congr rfl fun d _ => ?_
  rw [hx p d]
  have et : (⟨T * 512 + p.val, by omega⟩ : Fin 16384) = t := Fin.ext ht.symm
  rw [et]

/-! ## The 32 points -/

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the grid: the token window and the result window are at block (t, 0), the
    two projection windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The whole-array function: the low-rank update of the arrays the region finds. -/
abbrev G (c : Dev nD) : S16384x4096.Idx → EReal :=
  Cert.LowRank.out (V m c main_arg0) (V m c main_v5) (V m c main_v11)

/-- The token block at point `t` is rows `512·t …` of the token array. -/
theorem xblk_apply (c : Dev nD) (t : Fin cfg0.N) (ht : t.val < 32) (p : Fin 512) (d : Fin 4096) :
    iblk m c 0 t (ix2 p d) = V m c main_arg0 (ix2 (⟨t.val * 512 + p.val, by omega⟩ : Fin 16384) d) := by
  obtain ⟨e00, e01, -, -, -, -, -, -⟩ := idx_facts t
  show V m c main_arg0 (((cfg0.win 0).blk t).view.emb (ix2 p d)) = V m c main_arg0 _
  refine congrArg (V m c main_arg0) (funext fun a => Fin.ext ?_)
  match a with
  | ⟨0, _⟩ => show win0_0.index t (0 : Fin 2) * 512 + 1 * p.val = t.val * 512 + p.val; omega
  | ⟨1, _⟩ => show win0_0.index t (1 : Fin 2) * 4096 + 1 * d.val = d.val; omega

/-- The down-projection block at every point is the whole array. -/
theorem ablk_eq (c : Dev nD) (t : Fin cfg0.N) : iblk m c 1 t = V m c main_v5 := by
  obtain ⟨-, -, e10, e11, -, -, -, -⟩ := idx_facts t
  funext y
  show V m c main_v5 (((cfg0.win 1).blk t).view.emb y) = V m c main_v5 y
  refine congrArg (V m c main_v5) (funext fun a => Fin.ext ?_)
  match a with
  | ⟨0, _⟩ => show win0_1.index t (0 : Fin 2) * 64 + 1 * (y 0).val = (y 0).val; omega
  | ⟨1, _⟩ => show win0_1.index t (1 : Fin 2) * 4096 + 1 * (y 1).val = (y 1).val; omega

/-- The up-projection block at every point is the whole array. -/
theorem bblk_eq (c : Dev nD) (t : Fin cfg0.N) : iblk m c 2 t = V m c main_v11 := by
  obtain ⟨-, -, -, -, e20, e21, -, -⟩ := idx_facts t
  funext y
  show V m c main_v11 (((cfg0.win 2).blk t).view.emb y) = V m c main_v11 y
  refine congrArg (V m c main_v11) (funext fun a => Fin.ext ?_)
  match a with
  | ⟨0, _⟩ => show win0_2.index t (0 : Fin 2) * 4096 + 1 * (y 0).val = (y 0).val; omega
  | ⟨1, _⟩ => show win0_2.index t (1 : Fin 2) * 64 + 1 * (y 1).val = (y 1).val; omega

/-- What point `t` writes back is block `t` of `G`. -/
theorem flushed_eq (c : Dev nD) (t : Fin cfg0.N) :
    (dats m 0 c).flushed 3 t = ((cfg0.win 3).blk t).view.read (Elt Ideal) (G m c) := by
  have hN : grid0.N = 32 := N_0
  have ht : t.val < 32 := by have h : t.val < grid0.N := t.isLt; omega
  rw [flushed3]
  unfold out0_3
  rw [View.canon_unit_zero hz]
  simp only [View.ld_unit_zero (S := S512x4096) hz, View.ld_unit_zero (S := S64x4096) hz, View.ld_unit_zero (S := S4096x64) hz]
  obtain ⟨-, -, -, -, -, -, e30, e31⟩ := idx_facts t
  funext j
  show k0_pay1 (F := Ideal) (iblk m c 0 t) (iblk m c 1 t) (iblk m c 2 t) j = G m c (((cfg0.win 3).blk t).view.emb j)
  refine point_eq (V m c main_arg0) (V m c main_v5) (V m c main_v11) (iblk m c 0 t) (iblk m c 1 t) (iblk m c 2 t)
    t.val ht (xblk_apply m c t ht) (ablk_eq m c t) (bblk_eq m c t) j (((cfg0.win 3).blk t).view.emb j) ?_ ?_
  · show win0_3.index t (0 : Fin 2) * 512 + 1 * (j 0).val = t.val * 512 + (j 0).val; omega
  · show win0_3.index t (1 : Fin 2) * 4096 + 1 * (j 1).val = (j 1).val; omega

/-- An index is in point `t`'s block iff each coordinate is in the block's range on its axis. -/
theorem mem_blk (t : Fin cfg0.N) (i : S16384x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v12).slice (win0_3.rect t)).set ↔ _
  rw [View.set_slice_whole, Rect.mem_set_unit]
  exact Iff.rfl

/-- Every index is in the block of the point its row's band names. -/
theorem cover (i : S16384x4096.Idx) :
    ∃ t : Fin cfg0.N, (cfg0.win 3).flush t = true ∧ i ∈ ((cfg0.win 3).blk t).view.set := by
  have hN : grid0.N = 32 := N_0
  have hi0 : (i 0).val < 16384 := (i 0).isLt
  have hi1 : (i 1).val < 4096 := (i 1).isLt
  have hlt : (i 0).val / 512 < cfg0.N := by show (i 0).val / 512 < grid0.N; omega
  obtain ⟨-, -, -, -, -, -, e30, e31⟩ := idx_facts ⟨(i 0).val / 512, hlt⟩
  have e30' : win0_3.index ⟨(i 0).val / 512, hlt⟩ (0 : Fin 2) = (i 0).val / 512 := e30
  refine ⟨⟨(i 0).val / 512, hlt⟩, flush0_3 _, ?_⟩
  rw [mem_blk]
  intro a
  match a with
  | ⟨0, _⟩ => show win0_3.index ⟨(i 0).val / 512, hlt⟩ (0 : Fin 2) * 512 ≤ (i 0).val ∧ (i 0).val < win0_3.index ⟨(i 0).val / 512, hlt⟩ (0 : Fin 2) * 512 + 512; omega
  | ⟨1, _⟩ => show win0_3.index ⟨(i 0).val / 512, hlt⟩ (1 : Fin 2) * 4096 ≤ (i 1).val ∧ (i 1).val < win0_3.index ⟨(i 0).val / 512, hlt⟩ (1 : Fin 2) * 4096 + 4096; omega

/-- The result array after the run is `G`. -/
theorem final (c : Dev nD) : (dats m 0 c).arrAt 3 cfg0.N = G m c :=
  (dats m 0 c).arrAt_eq_of_cover 3 (G m c) (fun t _ => flushed_eq m c t) cover

/-- `G` in terms of the launch contents: the token array is untouched before the region and the two projections
    are the dequantization terms. -/
theorem G_eq (c : Dev nD) :
    G m c = Cert.LowRank.out (m ((c : Thread nD τ).loc main_arg0))
      (Cert.LowRank.Prefix.downProj (m ((c : Thread nD τ).loc main_arg1)) (m ((c : Thread nD τ).loc main_arg2)))
      (Cert.LowRank.Prefix.upProj (m ((c : Thread nD τ).loc main_arg3)) (m ((c : Thread nD τ).loc main_arg4))) := by
  show Cert.LowRank.out (V m c main_arg0) (V m c main_v5) (V m c main_v11) = _
  rw [V_main_arg0 m c, Cert.LowRank.Prefix.V_down m c, Cert.LowRank.Prefix.V_up m c]

/-- The kernel's run with its result named: the low-rank update of the tokens by the dequantized projections. -/
theorem run : θ_run defs (onTc (τ := τ) (main (F := Ideal))) ⟨m, fun _ => 0, ρ⟩ fun r => ∀ c : Dev nD,
      r.2.mem ((c : Thread nD τ).loc main_v12) = Cert.LowRank.out (m ((c : Thread nD τ).loc main_arg0))
        (Cert.LowRank.Prefix.downProj (m ((c : Thread nD τ).loc main_arg1)) (m ((c : Thread nD τ).loc main_arg2)))
        (Cert.LowRank.Prefix.upProj (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (G_eq m c)), (h c).2⟩)
    (run_blocks m ρ)

end Cert.LowRank.Kernel

end
-- ==== Proof.RefAt.lean ====
/-
  The reference, read as the low-rank update.

  The reference transposes the dequantized down-projection `a` to [4096, 64] and contracts the tokens' second axis
  with its first, `h[t, r] = ∑ d, x[t, d] · aᵀ[d, r]`, then transposes the up-projection `b` to [64, 4096] and
  contracts again, `out[t, o] = ∑ r, h[t, r] · bᵀ[r, o]`. A transpose read at an index swaps the two coordinates, so
  `aᵀ[d, r] = a[r, d]` and `bᵀ[r, o] = b[o, r]`, and the result is the double sum of the specification, term for
  term, with `a` and `b` the reference's own dequantized arrays.
-/
import proofs.«427352_j60258391162946_3_alg».proof.Proof.Gen.ReferenceIdeal.Read
import proofs.«427352_j60258391162946_3_alg».proof.Proof.LowRankSpec

noncomputable section

open scoped BigOperators

namespace Cert.LowRank.Ref

open Cert.ReferenceIdeal Cert.ReferenceIdeal.Read Idealize.ShloMosaic Idealize.ShloMosaic.ValueIdx

/-- The reference's result is the low-rank update of the tokens by its dequantized down- and up-projections. -/
theorem result_eq (x0 : (⟨S16384x4096, .f32⟩ : BufTy).Contents (Elt Ideal)) (x1 : (⟨S64x4096, .i32⟩ : BufTy).Contents (Elt Ideal))
    (x2 : (⟨S64x128, .f32⟩ : BufTy).Contents (Elt Ideal)) (x3 : (⟨S4096x64, .i32⟩ : BufTy).Contents (Elt Ideal))
    (x4 : (⟨S4096x2, .f32⟩ : BufTy).Contents (Elt Ideal)) :
    val_main_v15 (F := Ideal) x0 x1 x2 x3 x4
      = Cert.LowRank.out x0 (val_main_v5 (F := Ideal) x1 x2) (val_main_v11 (F := Ideal) x3 x4) := by
  funext i
  obtain ⟨t, o, rfl⟩ : ∃ (t : Fin 16384) (o : Fin 4096), i = ix2 t o := ⟨i 0, i 1, eq_ix2 i⟩
  rw [val_main_v15_apply, Cert.LowRank.out_ix2]
  unfold Cert.LowRank.outAt Cert.LowRank.hidden
  refine Finset.sum_congr rfl fun r _ => ?_
  rw [val_main_v13_apply, val_main_v14_apply]
  have eb : idx_main_v14 (ridx_main_v15 (ix2 t o) r) = ix2 o r :=
    funext fun a => Fin.ext (by match a with | ⟨0, _⟩ => rfl | ⟨1, _⟩ => rfl)
  rw [eb]
  refine congrArg (· * val_main_v11 (F := Ideal) x3 x4 (ix2 o r)) ?_
  refine Finset.sum_congr rfl fun d _ => ?_
  rw [val_main_v12_apply]
  have ex : lidx_main_v13 (lidx_main_v15 (ix2 t o) r) d = ix2 t d :=
    funext fun a => Fin.ext (by match a with | ⟨0, _⟩ => rfl | ⟨1, _⟩ => rfl)
  have ea : idx_main_v12 (ridx_main_v13 (lidx_main_v15 (ix2 t o) r) d) = ix2 r d :=
    funext fun a => Fin.ext (by match a with | ⟨0, _⟩ => rfl | ⟨1, _⟩ => rfl)
  rw [ex, ea]

end Cert.LowRank.Ref

end
-- ==== Proof.lean ====
/-
  A low-rank update with quantized factors: `out = (x · aᵀ) · bᵀ` over tokens `x : [16384, 4096]`, with
  `a : [64, 4096]` and `b : [4096, 64]` each dequantized from integer values and per-group scales (groups of 32
  along the last axis: value × its group's scale).

  Both programs dequantize on the host by the same operations in the same order, so the two dequantized factors are
  the same terms of the arguments. The kernel then walks 32 bands of 512 token rows; on each band it forms the
  512 × 64 hidden block `x · aᵀ` and from it the 512 × 4096 output block `· bᵀ`, both products into zero
  accumulators. The reference forms the whole hidden array and the whole output by two contractions through two
  transposes. Read at an element, both are

      out[t, o] = ∑ r < 64, (∑ d < 4096, x[t, d] · a[r, d]) · b[o, r],

  the same sums in the same association; the row bands tile the array. No distributive law is used and no input
  needs to be finite, so the precondition is never opened. The idealization rewrote no operation, so that conjunct is
  trivial; the kernel's two frames are the generated ones, and the reference's frame is its generated run with the
  result dropped.
-/
import proofs.«427352_j60258391162946_3_alg».proof.Defs
import proofs.«427352_j60258391162946_3_alg».proof.Proof.Gen.Kernel
import proofs.«427352_j60258391162946_3_alg».proof.Proof.Gen.Kernel.Skeleton
import proofs.«427352_j60258391162946_3_alg».proof.Proof.Gen.Kernel.Launch
import proofs.«427352_j60258391162946_3_alg».proof.Proof.Gen.Kernel.Points
import proofs.«427352_j60258391162946_3_alg».proof.Proof.Gen.Kernel.Frame
import proofs.«427352_j60258391162946_3_alg».proof.Proof.Gen.KernelIdeal
import proofs.«427352_j60258391162946_3_alg».proof.Proof.Gen.KernelIdeal.Skeleton
import proofs.«427352_j60258391162946_3_alg».proof.Proof.Gen.KernelIdeal.Launch
import proofs.«427352_j60258391162946_3_alg».proof.Proof.Gen.KernelIdeal.Points
import proofs.«427352_j60258391162946_3_alg».proof.Proof.Gen.KernelIdeal.Frame
import proofs.«427352_j60258391162946_3_alg».proof.Proof.Gen.ReferenceIdeal
import proofs.«427352_j60258391162946_3_alg».proof.Proof.Gen.KernelIdeal.Value
import proofs.«427352_j60258391162946_3_alg».proof.Proof.Gen.ReferenceIdeal.Run
import proofs.«427352_j60258391162946_3_alg».proof.Proof.Gen.ReferenceIdeal.Read
import proofs.«427352_j60258391162946_3_alg».proof.Proof.Gen.Pre_finite_inputs
import proofs.«427352_j60258391162946_3_alg».proof.Proof.KernelValue
import proofs.«427352_j60258391162946_3_alg».proof.Proof.RefAt
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The reference's dequantized down-projection is the kernel's: the same operations of the same arguments. -/
theorem down_eq (q : (⟨Cert.ReferenceIdeal.S64x4096, .i32⟩ : BufTy).Contents (Elt Ideal))
    (s : (⟨Cert.ReferenceIdeal.S64x128, .f32⟩ : BufTy).Contents (Elt Ideal)) :
    Cert.ReferenceIdeal.Read.val_main_v5 (F := Ideal) q s = Cert.LowRank.Prefix.downProj q s := rfl

/-- The reference's dequantized up-projection is the kernel's. -/
theorem up_eq (q : (⟨Cert.ReferenceIdeal.S4096x64, .i32⟩ : BufTy).Contents (Elt Ideal))
    (s : (⟨Cert.ReferenceIdeal.S4096x2, .f32⟩ : BufTy).Contents (Elt Ideal)) :
    Cert.ReferenceIdeal.Read.val_main_v11 (F := Ideal) q s = Cert.LowRank.Prefix.upProj q s := rfl

/-- From memories agreeing on the arguments both runs end with the result at the low-rank update of the tokens by
    the dequantized factors: the kernel's by its 32 row bands, the reference's by its two contractions. -/
theorem algebraic : Cert.algebraic_KernelIdeal_ReferenceIdeal := by
  intro m ρ m' ρ' _ hagree
  refine ⟨_, Cert.LowRank.Kernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v15_eq _ _ _ _ _).trans ?_
  rw [Cert.LowRank.Ref.result_eq, down_eq, up_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
